-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S64 : Shape := ⟨1, ![64]⟩
abbrev S64x256 : Shape := ⟨2, ![64, 256]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S64 : S_.BroadcastsInDim S64 (![] : Fin 0 → Fin S64.rank)
  reducesTo_S64_S_d0 : S64.ReducesTo [0] S_
  bcast_S_S64x256 : S_.BroadcastsInDim S64x256 (![] : Fin 0 → Fin S64x256.rank)
  reducesTo_S64x256_S_d0_1 : S64x256.ReducesTo [0, 1] S_

variable [Facts]

def fn_part1 {F : FTy → Type} [FloatOps F] (main_arg4 : FVec F S64x256 .f32) (main_v13 : IVec S_ 1) (main_v16 : IVec S64x256 1) : IVec S_ 1 :=
  let main_c_5 : IVec S_ 1 := constantI S_ 1 1#1
  let main_v17 : IVec S_ 1 := (fun x v => Host.reduce IntOp.andi x v reducesTo_S64x256_S_d0_1 h_S_) main_v16 main_c_5
  let main_v18 : IVec S_ 1 := andi main_v13 main_v17
  let main_v19 : FVec F S64x256 .f32 := Host.absf main_arg4
  let main_cst_6 : FVec F S_ .f32 := constant S_ .f32 0x7F800000#32
  let main_v20 : FVec F S64x256 .f32 := broadcastInDim S64x256 ![] bcast_S_S64x256 main_cst_6
  let main_v21 : IVec S64x256 1 := cmpf .olt main_v19 main_v20
  let main_c_7 : IVec S_ 1 := constantI S_ 1 1#1
  let main_v22 : IVec S_ 1 := (fun x v => Host.reduce IntOp.andi x v reducesTo_S64x256_S_d0_1 h_S_) main_v21 main_c_7
  let main_v23 : IVec S_ 1 := andi main_v18 main_v22
  main_v23

def fn {F : FTy → Type} [FloatOps F] (main_arg0 : FVec F S4096x64 .f32) (main_arg1 : FVec F S64 .f32) (main_arg2 : FVec F S64 .f32) (main_arg3 : FVec F S64x256 .f32) (main_arg4 : FVec F S64x256 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S64 .f32 := Host.absf main_arg1
  let main_cst_0 : FVec F S_ .f32 := constant S_ .f32 0x7F800000#32
  let main_v5 : FVec F S64 .f32 := broadcastInDim S64 ![] bcast_S_S64 main_cst_0
  let main_v6 : IVec S64 1 := cmpf .olt main_v4 main_v5
  let main_c_1 : IVec S_ 1 := constantI S_ 1 1#1
  let main_v7 : IVec S_ 1 := (fun x v => Host.reduce IntOp.andi x v reducesTo_S64_S_d0 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x256 .f32 := Host.absf main_arg3
  let main_cst_4 : FVec F S_ .f32 := constant S_ .f32 0x7F800000#32
  let main_v15 : FVec F S64x256 .f32 := broadcastInDim S64x256 ![] bcast_S_S64x256 main_cst_4
  let main_v16 : IVec S64x256 1 := cmpf .olt main_v14 main_v15
  fn_part1 (F := F) main_arg4 main_v13 main_v16
-- ==== Kernel.lean ====
abbrev S4096x64 : Shape := ⟨2, ![4096, 64]⟩
abbrev S64 : Shape := ⟨1, ![64]⟩
abbrev S64x256 : Shape := ⟨2, ![64, 256]⟩
abbrev S1x64 : Shape := ⟨2, ![1, 64]⟩
abbrev S4096x64x256 : Shape := ⟨3, ![4096, 64, 256]⟩
abbrev S256x64 : Shape := ⟨2, ![256, 64]⟩
abbrev S256x64x256 : Shape := ⟨3, ![256, 64, 256]⟩
abbrev S256x64x1 : Shape := ⟨3, ![256, 64, 1]⟩
abbrev S1x64x256 : Shape := ⟨3, ![1, 64, 256]⟩

abbrev nBuf : Space → Nat
  | .hbm => 8
  | .vmem => 8
  | .smem => 0
  | _ => 0

abbrev bufTy : (tb : Table) → Fin (tcTables nBuf tb) → BufTy
  | .hbm, ⟨0, _⟩ => ⟨S4096x64, .f32⟩
  | .hbm, ⟨1, _⟩ => ⟨S64, .f32⟩
  | .hbm, ⟨2, _⟩ => ⟨S64, .f32⟩
  | .hbm, ⟨3, _⟩ => ⟨S64x256, .f32⟩
  | .hbm, ⟨4, _⟩ => ⟨S64x256, .f32⟩
  | .hbm, ⟨5, _⟩ => ⟨S1x64, .f32⟩
  | .hbm, ⟨6, _⟩ => ⟨S1x64, .f32⟩
  | .hbm, ⟨7, _⟩ => ⟨S4096x64x256, .f32⟩
  | .local _ .vmem, ⟨0, _⟩ => ⟨S256x64, .f32⟩
  | .local _ .vmem, ⟨1, _⟩ => ⟨S256x64, .f32⟩
  | .local _ .vmem, ⟨2, _⟩ => ⟨S1x64, .f32⟩
  | .local _ .vmem, ⟨3, _⟩ => ⟨S1x64, .f32⟩
  | .local _ .vmem, ⟨4, _⟩ => ⟨S64x256, .f32⟩
  | .local _ .vmem, ⟨5, _⟩ => ⟨S64x256, .f32⟩
  | .local _ .vmem, ⟨6, _⟩ => ⟨S256x64x256, .f32⟩
  | .local _ .vmem, ⟨7, _⟩ => ⟨S256x64x256, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S256x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S64x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x64x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S64_S1x64 : S64.ShapeCasts S1x64
  inb_S256x64_S256x64_0_0 : ∀ a, (![0, 0] : Fin 2 → Nat) a + S256x64.size a ≤ S256x64.size a
  h_S256x64 : 0 < S256x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  inb_S64x256_S64x256_0_0 : ∀ a, (![0, 0] : Fin 2 → Nat) a + S64x256.size a ≤ S64x256.size a
  h_S64x256 : 0 < S64x256.numel
  broadcasts_S1x64_S256x64 : S1x64.Broadcasts S256x64
  shapeCasts_S256x64_S256x64x1 : S256x64.ShapeCasts S256x64x1
  shapeCasts_S64x256_S1x64x256 : S64x256.ShapeCasts S1x64x256
  broadcasts_S256x64x1_S256x64x256 : S256x64x1.Broadcasts S256x64x256
  broadcasts_S1x64x256_S256x64x256 : S1x64x256.Broadcasts S256x64x256
  inb_S256x64x256_S256x64x256_0_0_0 : ∀ a, (![0, 0, 0] : Fin 3 → Nat) a + S256x64x256.size a ≤ S256x64x256.size a
  h_S256x64x256 : 0 < S256x64x256.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x64.size a ≤ S4096x64.size a
  hwx0_0 : ∀ i : grid0.Coords, EltTy.bits .f32 = 32 ∨ (Rect.block (s := S4096x64) S256x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x64.size a ≤ S1x64.size a
  hwx0_1 : ∀ i : grid0.Coords, EltTy.bits .f32 = 32 ∨ (Rect.block (s := S1x64) S1x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x64.size a ≤ S1x64.size a
  hwx0_2 : ∀ i : grid0.Coords, EltTy.bits .f32 = 32 ∨ (Rect.block (s := S1x64) S1x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S64x256.size a ≤ S64x256.size a
  hwx0_3 : ∀ i : grid0.Coords, EltTy.bits .f32 = 32 ∨ (Rect.block (s := S64x256) S64x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x256.size a ≤ S64x256.size a
  hwx0_4 : ∀ i : grid0.Coords, EltTy.bits .f32 = 32 ∨ (Rect.block (s := S64x256) S64x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x64x256.size a ≤ S4096x64x256.size a
  hwx0_5 : ∀ i : grid0.Coords, EltTy.bits .f32 = 32 ∨ (Rect.block (s := S4096x64x256) S256x64x256.size (cc0_transform_5 i) (hinb0_5 i)).WholeWords (EltTy.packing .f32)

variable [Facts₀]

abbrev win0_0 : Pipeline.Window sig grid0 :=
  Pipeline.Window.ofSpec (Memref.whole main_arg0) S256x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S64x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S64x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v2) S256x64x256.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S4096x64 : Shape := ⟨2, ![4096, 64]⟩
abbrev S64 : Shape := ⟨1, ![64]⟩
abbrev S64x256 : Shape := ⟨2, ![64, 256]⟩
abbrev S1x64 : Shape := ⟨2, ![1, 64]⟩
abbrev S_ : Shape := ⟨0, ![]⟩
abbrev S4096x64x1 : Shape := ⟨3, ![4096, 64, 1]⟩
abbrev S1x64x256 : Shape := ⟨3, ![1, 64, 256]⟩
abbrev S4096x64x256 : Shape := ⟨3, ![4096, 64, 256]⟩

abbrev nBuf : Space → Nat
  | .hbm => 22
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S64, .f32⟩
  | .hbm, ⟨2, _⟩ => ⟨S64, .f32⟩
  | .hbm, ⟨3, _⟩ => ⟨S64x256, .f32⟩
  | .hbm, ⟨4, _⟩ => ⟨S64x256, .f32⟩
  | .hbm, ⟨5, _⟩ => ⟨S1x64, .f32⟩
  | .hbm, ⟨6, _⟩ => ⟨S4096x64, .f32⟩
  | .hbm, ⟨7, _⟩ => ⟨S4096x64, .f32⟩
  | .hbm, ⟨8, _⟩ => ⟨S1x64, .f32⟩
  | .hbm, ⟨9, _⟩ => ⟨S4096x64, .f32⟩
  | .hbm, ⟨10, _⟩ => ⟨S4096x64, .f32⟩
  | .hbm, ⟨11, _⟩ => ⟨S_, .f32⟩
  | .hbm, ⟨12, _⟩ => ⟨S4096x64, .f32⟩
  | .hbm, ⟨13, _⟩ => ⟨S4096x64, .f32⟩
  | .hbm, ⟨14, _⟩ => ⟨S4096x64x1, .f32⟩
  | .hbm, ⟨15, _⟩ => ⟨S1x64x256, .f32⟩
  | .hbm, ⟨16, _⟩ => ⟨S4096x64x256, .f32⟩
  | .hbm, ⟨17, _⟩ => ⟨S4096x64x256, .f32⟩
  | .hbm, ⟨18, _⟩ => ⟨S4096x64x256, .f32⟩
  | .hbm, ⟨19, _⟩ => ⟨S1x64x256, .f32⟩
  | .hbm, ⟨20, _⟩ => ⟨S4096x64x256, .f32⟩
  | .hbm, ⟨21, _⟩ => ⟨S4096x64x256, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_call0_cst : Ref sig .tc := ⟨.hbm, 11, rfl⟩
abbrev main_call0_v0 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩

abbrev nD : Nat := 1
abbrev τ : Topo := Topo.v7x

variable {F : FTy → Type} [FloatOps F]

class Facts₀ : Prop where
  bcast_S64_S1x64_1 : S64.BroadcastsInDim S1x64 (![1] : Fin 1 → Fin S1x64.rank)
  bcast_S1x64_S4096x64_0_1 : S1x64.BroadcastsInDim S4096x64 (![0, 1] : Fin 2 → Fin S4096x64.rank)
  bcast_S_S4096x64 : S_.BroadcastsInDim S4096x64 (![] : Fin 0 → Fin S4096x64.rank)
  bcast_S4096x64_S4096x64x1_0_1 : S4096x64.BroadcastsInDim S4096x64x1 (![0, 1] : Fin 2 → Fin S4096x64x1.rank)
  bcast_S64x256_S1x64x256_1_2 : S64x256.BroadcastsInDim S1x64x256 (![1, 2] : Fin 2 → Fin S1x64x256.rank)
  bcast_S4096x64x1_S4096x64x256_0_1_2 : S4096x64x1.BroadcastsInDim S4096x64x256 (![0, 1, 2] : Fin 3 → Fin S4096x64x256.rank)
  bcast_S1x64x256_S4096x64x256_0_1_2 : S1x64x256.BroadcastsInDim S4096x64x256 (![0, 1, 2] : Fin 3 → Fin S4096x64x256.rank)

variable [Facts₀]

class Facts : Prop extends Facts₀ where

variable [Facts]
-- ==== Proof.DenseSpec.lean ====
/-
  The function both programs compute, index by index.

  A batch of 4096 rows of 64 scalars goes through 64 independent one-unit hidden layers and a 256-wide linear read-out
  per unit:
      hidden b i = max (x[b,i] · w1[i] + b1[i], 0)
      out b i n  = hidden b i · W2[i,n] + b2[i,n].
  Every entry of the result depends on one entry of x, one of w1, one of b1, one of W2 and one of b2; nothing is summed,
  so no algebraic law is needed to compare two programs that spell this formula, only where each of them reads its
  operands.
-/
import Idealize.ShloMosaic.Lib.ValueIdx

noncomputable section

namespace Cert.DenseMlp

open Idealize.ShloMosaic Idealize.ShloMosaic.ValueIdx

variable {F : FTy → Type} [FloatOps F]

/-- The hidden unit `i` of row `b`: a scalar affine map of `x[b,i]` followed by the positive part. -/
def hidden (x : Vec F ⟨2, ![4096, 64]⟩ .f32) (w1 b1 : Vec F ⟨1, ![64]⟩ .f32) (b : Fin 4096) (i : Fin 64) : F .f32 :=
  FloatOps.maximumf (FloatOps.addf (FloatOps.mulf (x (ix2 b i)) (w1 (ix1 i))) (b1 (ix1 i))) (FloatOps.ofBits .f32 0x00000000#32)

/-- The result at `(b, i, n)`: hidden unit `i` of row `b` scaled by `W2[i,n]` and shifted by `b2[i,n]`. -/
def out (x : Vec F ⟨2, ![4096, 64]⟩ .f32) (w1 b1 : Vec F ⟨1, ![64]⟩ .f32) (W2 b2 : Vec F ⟨2, ![64, 256]⟩ .f32) :
    Vec F ⟨3, ![4096, 64, 256]⟩ .f32 :=
  fun j => FloatOps.addf (FloatOps.mulf (hidden x w1 b1 (j 0) (j 1)) (W2 (ix2 (j 1) (j 2)))) (b2 (ix2 (j 1) (j 2)))

end Cert.DenseMlp

end
-- ==== Proof.RefIsSpec.lean ====
/-
  The reference computes the specification.

  The reference spells the formula with broadcasts: w1 and b1 are laid out as one row [1,64] and repeated down the 4096
  rows; the hidden layer [4096,64] gets a unit axis [4096,64,1] and is repeated along the 256 read-outs; W2 and b2 get
  a unit batch axis [1,64,256] and are repeated over the batch. Read at an index (b, i, n), each broadcast forgets the
  coordinate it repeats along, so the operand entries met are x[b,i], w1[i], b1[i], W2[i,n], b2[i,n]: the
  specification's.
-/
import proofs.«159730_j5557687681688_1_alg».proof.Proof.Gen.ReferenceIdeal.Read
import proofs.«159730_j5557687681688_1_alg».proof.Proof.DenseSpec

noncomputable section

namespace Cert.DenseMlp.Ref

open Cert.ReferenceIdeal Cert.ReferenceIdeal.Read Idealize.ShloMosaic Idealize.ShloMosaic.ValueIdx

variable {F : FTy → Type} [FloatOps F]

/-- Through the two broadcasts of the hidden layer, the index (b, i, n) reads x at (b, i). -/
theorem at_x (j : S4096x64x256.Idx) : idx_main_v7 (idx_main_v9 j) = ix2 (j 0) (j 1) :=
  funext fun a => match a with | ⟨0, _⟩ => rfl | ⟨1, _⟩ => rfl

/-- Through the row layout and its repetition down the rows, (b, i) reads w1 at i. -/
theorem at_w1 (j : S4096x64x256.Idx) : idx_main_v0 (idx_main_v1 (idx_main_v7 (idx_main_v9 j))) = ix1 (j 1) :=
  funext fun a => match a with | ⟨0, _⟩ => rfl

/-- The same for b1. -/
theorem at_b1 (j : S4096x64x256.Idx) : idx_main_v3 (idx_main_v4 (idx_main_v7 (idx_main_v9 j))) = ix1 (j 1) :=
  funext fun a => match a with | ⟨0, _⟩ => rfl

/-- Through the unit batch axis and its repetition over the batch, (b, i, n) reads W2 at (i, n). -/
theorem at_W2 (j : S4096x64x256.Idx) : idx_main_v8 (idx_main_v10 j) = ix2 (j 1) (j 2) :=
  funext fun a => match a with | ⟨0, _⟩ => rfl | ⟨1, _⟩ => rfl

/-- The same for b2. -/
theorem at_b2 (j : S4096x64x256.Idx) : idx_main_v12 (idx_main_v13 j) = ix2 (j 1) (j 2) :=
  funext fun a => match a with | ⟨0, _⟩ => rfl | ⟨1, _⟩ => rfl

/-- The reference's last stage is the specification of its five arguments. -/
theorem stage_eq (x : Vec F S4096x64 .f32) (w1 b1 : Vec F S64 .f32) (W2 b2 : Vec F S64x256 .f32) :
    val_main_v14 (F := F) x w1 b1 W2 b2 = Cert.DenseMlp.out x w1 b1 W2 b2 := by
  funext j
  rw [val_main_v14_apply, val_main_v11_apply, val_main_v9_apply, val_main_v7_apply, val_main_v6_apply,
    val_main_v5_apply, val_main_v2_apply, val_main_v1_apply, val_main_v0_apply, val_main_v4_apply, val_main_v3_apply,
    val_main_call0_v0_apply, val_main_call0_cst_apply, val_main_v10_apply, val_main_v8_apply, val_main_v13_apply,
    val_main_v12_apply, at_x, at_w1, at_b1, at_W2, at_b2]
  rfl

end Cert.DenseMlp.Ref

end
-- ==== Proof.KernelBlock.lean ====
/-
  What one grid point of the kernel writes back.

  The kernel walks the batch in 16 slabs of 256 rows. At slab t it holds rows 256·t … 256·t+255 of x, the whole of
  w1 and b1 (each laid out beforehand as one row [1,64]), and the whole of W2 and b2, and it stores the slab
  [256,64,256] of the result. Entry (r, i, n) of that slab is built from x's block at (r, i), the w1 and b1 rows at
  (0, i), and W2 and b2 at (i, n): the specification's entry (256·t + r, i, n).
-/
import proofs.«159730_j5557687681688_1_alg».proof.Proof.Gen.KernelIdeal.Value
import proofs.«159730_j5557687681688_1_alg».proof.Proof.DenseSpec
import Idealize.ShloMosaic.Lib.Pipeline.Value
import Idealize.ShloMosaic.Lib.StableHlo.Run

noncomputable section

namespace Cert.DenseMlp.Ker

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable {F : FTy → Type} [FloatOps F]
variable (m : (ℓ : Loc nD τ sig) → Buf (Elt F) ℓ)

/-! ## The slab as a function of the five blocks -/

theorem origin2 : (![0, 0] : Fin 2 → Nat) = fun _ => 0 := funext fun a => by fin_cases a <;> rfl

/-- Slab entry (r, i, n) reads x's block at (r, i). -/
theorem rd_x (y : S256x64x256.Idx) : ix5_0 y = ix2 (y 0) (y 1) :=
  funext fun a => match a with | ⟨0, _⟩ => rfl | ⟨1, _⟩ => rfl
/-- It reads the w1 row at (0, i). -/
theorem rd_w1 (y : S256x64x256.Idx) : ix5_1 y = ix2 (0 : Fin 1) (y 1) :=
  funext fun a => match a with | ⟨0, _⟩ => rfl | ⟨1, _⟩ => rfl
/-- It reads the b1 row at (0, i). -/
theorem rd_b1 (y : S256x64x256.Idx) : ix5_2 y = ix2 (0 : Fin 1) (y 1) :=
  funext fun a => match a with | ⟨0, _⟩ => rfl | ⟨1, _⟩ => rfl
/-- It reads W2 at (i, n). -/
theorem rd_W2 (y : S256x64x256.Idx) : ix5_3 y = ix2 (y 1) (y 2) :=
  funext fun a => match a with | ⟨0, _⟩ => rfl | ⟨1, _⟩ => rfl
/-- It reads b2 at (i, n). -/
theorem rd_b2 (y : S256x64x256.Idx) : ix5_4 y = ix2 (y 1) (y 2) :=
  funext fun a => match a with | ⟨0, _⟩ => rfl | ⟨1, _⟩ => rfl

/-- The slab the body leaves, entry by entry, for any five blocks: the positive part of an affine map of the x entry,
    scaled and shifted by the read-out's entries. -/
theorem slab_apply (P0 : Vec F S256x64 .f32) (P1 P2 : Vec F S1x64 .f32) (P3 P4 : Vec F S64x256 .f32) (y : S256x64x256.Idx) :
    out0_5 P0 P1 P2 P3 P4 y
      = FloatOps.addf (FloatOps.mulf (FloatOps.maximumf (FloatOps.addf (FloatOps.mulf (P0 (ix2 (y 0) (y 1)))
          (P1 (ix2 (0 : Fin 1) (y 1)))) (P2 (ix2 (0 : Fin 1) (y 1)))) (FloatOps.ofBits .f32 0x00000000#32))
          (P3 (ix2 (y 1) (y 2)))) (P4 (ix2 (y 1) (y 2))) := by
  unfold out0_5
  simp only [View.ld_unit_zero (S := S256x64) origin2, View.ld_unit_zero (S := S1x64) origin2,
    View.ld_unit_zero (S := S64x256) origin2]
  rw [canon5_eq]
  dsimp only [E5]
  rw [rd_x, rd_w1, rd_b1, rd_W2, rd_b2]
  rfl

/-! ## The rows the kernel is handed: w1 and b1 laid out as [1,64] before the launch -/

/-- When the kernel starts, the w1 row is the argument w1 with a unit axis in front. -/
theorem w1row_eq (c : Dev nD) :
    (V m c main_v0 : S1x64.Idx → Elt F .f32) = shapeCast S1x64 (m ((c : Thread nD τ).loc main_arg1)) shapeCasts_S64_S1x64 := by
  dsimp only [Gen.V, Gen.hostOps0]; after_results; rfl

/-- And the b1 row is the argument b1 with a unit axis in front. -/
theorem b1row_eq (c : Dev nD) :
    (V m c main_v1 : S1x64.Idx → Elt F .f32) = shapeCast S1x64 (m ((c : Thread nD τ).loc main_arg2)) shapeCasts_S64_S1x64 := by
  dsimp only [Gen.V, Gen.hostOps0]; after_results; rfl

/-! ## Where each block sits in its array -/

/-- The block positions over the 16 slabs: x's and the result's move together down the batch; every other block, and
    the result's two inner axes, stay at the origin. -/
theorem positions : ∀ t : Fin cfg0.N,
      win0_0.index t (0 : Fin 2) = win0_5.index t (0 : Fin 3) ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 3) ≤ 15 ∧ win0_5.index t (1 : Fin 3) = 0 ∧ win0_5.index t (2 : Fin 3) = 0 :=
  (by decide +kernel : ∀ t : Fin grid0.N, _)

/-- Slab t's x block at (r, i) is x at (256·t + r, i). -/
theorem x_block (c : Dev nD) (t : Fin cfg0.N) (y : S256x64.Idx) (i : S4096x64.Idx)
    (h0 : (i 0).val = win0_5.index t (0 : Fin 3) * 256 + (y 0).val) (h1 : (i 1).val = (y 1).val) :
    iblk m c 0 t y = m ((c : Thread nD τ).loc main_arg0) i := by
  show V m c main_arg0 (((cfg0.win 0).blk t).view.emb y) = _
  rw [V_main_arg0]
  obtain ⟨e0, e1, -⟩ := positions t
  congr 1; funext a; apply Fin.ext
  match a with
  | ⟨0, _⟩ => show win0_0.index t (0 : Fin 2) * 256 + 1 * (y 0).val = (i 0).val; omega
  | ⟨1, _⟩ => show win0_0.index t (1 : Fin 2) * 64 + 1 * (y 1).val = (i 1).val; omega

/-- The w1 row's block at (0, i) is w1 at i. -/
theorem w1_block (c : Dev nD) (t : Fin cfg0.N) (y : S1x64.Idx) (i : S64.Idx) (h : (i 0).val = (y 1).val) :
    iblk m c 1 t y = m ((c : Thread nD τ).loc main_arg1) i := by
  show V m c main_v0 (((cfg0.win 1).blk t).view.emb y) = _
  rw [w1row_eq]
  obtain ⟨-, -, e2, e3, -⟩ := positions t
  refine shapeCast_apply _ _ _ i ?_
  rw [Shape.rowMajor_val_one, Shape.rowMajor_val_two]
  have hy : (y 0).val < 1 := (y 0).isLt
  show (i 0).val = (win0_1.index t (0 : Fin 2) * 1 + 1 * (y 0).val) * 64 + (win0_1.index t (1 : Fin 2) * 64 + 1 * (y 1).val)
  omega

/-- The b1 row's block at (0, i) is b1 at i. -/
theorem b1_block (c : Dev nD) (t : Fin cfg0.N) (y : S1x64.Idx) (i : S64.Idx) (h : (i 0).val = (y 1).val) :
    iblk m c 2 t y = m ((c : Thread nD τ).loc main_arg2) i := by
  show V m c main_v1 (((cfg0.win 2).blk t).view.emb y) = _
  rw [b1row_eq]
  obtain ⟨-, -, -, -, e4, e5, -⟩ := positions t
  refine shapeCast_apply _ _ _ i ?_
  rw [Shape.rowMajor_val_one, Shape.rowMajor_val_two]
  have hy : (y 0).val < 1 := (y 0).isLt
  show (i 0).val = (win0_2.index t (0 : Fin 2) * 1 + 1 * (y 0).val) * 64 + (win0_2.index t (1 : Fin 2) * 64 + 1 * (y 1).val)
  omega

/-- W2's block is all of W2. -/
theorem W2_block (c : Dev nD) (t : Fin cfg0.N) (y : S64x256.Idx) : iblk m c 3 t y = m ((c : Thread nD τ).loc main_arg3) y := by
  show V m c main_arg3 (((cfg0.win 3).blk t).view.emb y) = _
  rw [V_main_arg3]
  obtain ⟨-, -, -, -, -, -, e6, e7, -⟩ := positions t
  congr 1; funext a; apply Fin.ext
  match a with
  | ⟨0, _⟩ => show win0_3.index t (0 : Fin 2) * 64 + 1 * (y 0).val = (y 0).val; omega
  | ⟨1, _⟩ => show win0_3.index t (1 : Fin 2) * 256 + 1 * (y 1).val = (y 1).val; omega

/-- b2's block is all of b2. -/
theorem b2_block (c : Dev nD) (t : Fin cfg0.N) (y : S64x256.Idx) : iblk m c 4 t y = m ((c : Thread nD τ).loc main_arg4) y := by
  show V m c main_arg4 (((cfg0.win 4).blk t).view.emb y) = _
  rw [V_main_arg4]
  obtain ⟨-, -, -, -, -, -, -, -, e8, e9, -⟩ := positions t
  congr 1; funext a; apply Fin.ext
  match a with
  | ⟨0, _⟩ => show win0_4.index t (0 : Fin 2) * 64 + 1 * (y 0).val = (y 0).val; omega
  | ⟨1, _⟩ => show win0_4.index t (1 : Fin 2) * 256 + 1 * (y 1).val = (y 1).val; omega

/-! ## The slab written back is the specification's slab -/

/-- What slab t writes back is rows 256·t … 256·t+255 of the specification of the five arguments. -/
theorem slab_eq (c : Dev nD) (t : Fin cfg0.N) :
    (dats m 0 c).flushed 5 t = ((cfg0.win 5).blk t).view.read (Elt F)
      (Cert.DenseMlp.out (m ((c : Thread nD τ).loc main_arg0)) (m ((c : Thread nD τ).loc main_arg1))
        (m ((c : Thread nD τ).loc main_arg2)) (m ((c : Thread nD τ).loc main_arg3)) (m ((c : Thread nD τ).loc main_arg4))) := by
  rw [flushed5]
  funext j
  show out0_5 (iblk m c 0 t) (iblk m c 1 t) (iblk m c 2 t) (iblk m c 3 t) (iblk m c 4 t) j
    = Cert.DenseMlp.out _ _ _ _ _ (((cfg0.win 5).blk t).view.emb j)
  rw [slab_apply]
  obtain ⟨-, -, -, -, -, -, -, -, -, -, -, e11, e12⟩ := positions t
  have hj1 : (j 1).val < 64 := (j 1).isLt
  have hj2 : (j 2).val < 256 := (j 2).isLt
  have k0 : ((((cfg0.win 5).blk t).view.emb j) 0).val = win0_5.index t (0 : Fin 3) * 256 + (j 0).val := by
    show win0_5.index t (0 : Fin 3) * 256 + 1 * (j 0).val = win0_5.index t (0 : Fin 3) * 256 + (j 0).val; omega
  have k1 : ((((cfg0.win 5).blk t).view.emb j) 1).val = (j 1).val := by
    show win0_5.index t (1 : Fin 3) * 64 + 1 * (j 1).val = (j 1).val; omega
  have k2 : ((((cfg0.win 5).blk t).view.emb j) 2).val = (j 2).val := by
    show win0_5.index t (2 : Fin 3) * 256 + 1 * (j 2).val = (j 2).val; omega
  rw [x_block m c t (ix2 (j 0) (j 1)) (ix2 ((((cfg0.win 5).blk t).view.emb j) 0) ((((cfg0.win 5).blk t).view.emb j) 1)) k0 k1,
    w1_block m c t (ix2 (0 : Fin 1) (j 1)) (ix1 ((((cfg0.win 5).blk t).view.emb j) 1)) k1,
    b1_block m c t (ix2 (0 : Fin 1) (j 1)) (ix1 ((((cfg0.win 5).blk t).view.emb j) 1)) k1,
    W2_block, b2_block]
  have i12 : (ix2 (j 1) (j 2) : S64x256.Idx) = ix2 ((((cfg0.win 5).blk t).view.emb j) 1) ((((cfg0.win 5).blk t).view.emb j) 2) :=
    funext fun a => Fin.ext (match a with | ⟨0, _⟩ => k1.symm | ⟨1, _⟩ => k2.symm)
  rw [i12]
  rfl

end Cert.DenseMlp.Ker

end
-- ==== Proof.KernelArray.lean ====
/-
  From the 16 slabs to the whole result.

  Slab t occupies rows 256·t … 256·t+255 of the result and all of its two inner axes, so row b lies in slab b / 256 and
  the 16 slabs fill the array. Each slab written back is the specification's slab, so the array the kernel leaves is
  the specification of the five arguments, and the arguments are untouched.
-/
import proofs.«159730_j5557687681688_1_alg».proof.Proof.KernelBlock

noncomputable section

namespace Cert.DenseMlp.Ker

open Cert.KernelIdeal Cert.KernelIdeal.Gen Cert.KernelIdeal.Value Idealize.ShloMosaic Idealize.ShloMosaic.TcCoe
open Idealize.SL.Sem Idealize.ShloMosaic.ValueIdx
open Idealize.ShloMosaic.Pipeline (Dat)

variable {F : FTy → Type} [FloatOps F]
variable (m : (ℓ : Loc nD τ sig) → Buf (Elt F) ℓ) (ρ : Dev nD → PrngReg)

/-- An entry of the result is in slab t iff, on each axis, its coordinate is in the slab's range. -/
theorem mem_slab (t : Fin cfg0.N) (i : S4096x64x256.Idx) :
    i ∈ ((cfg0.win 5).blk t).view.set ↔ ∀ a : Fin 3, win0_5.index t a * S256x64x256.size a ≤ (i a).val
      ∧ (i a).val < win0_5.index t a * S256x64x256.size a + S256x64x256.size a := by
  show i ∈ ((View.whole main_v2).slice (win0_5.rect t)).set ↔ _
  rw [View.set_slice_whole, Rect.mem_set_unit]
  exact Iff.rfl

/-- Each of the 16 row ranges is some slab's. -/
theorem slab_of_range : ∀ q : Fin 16, ∃ t : Fin cfg0.N, win0_5.index t = ![q.val, 0, 0] :=
  (by decide +kernel : ∀ q : Fin 16, ∃ t : Fin grid0.N, win0_5.index t = ![q.val, 0, 0])

/-- Every entry of the result lies in a slab that is written back: row b in slab b / 256. -/
theorem slabs_cover (i : S4096x64x256.Idx) :
    ∃ t : Fin cfg0.N, (cfg0.win 5).flush t = true ∧ i ∈ ((cfg0.win 5).blk t).view.set := by
  have hi0 : (i 0).val < 4096 := (i 0).isLt
  have hi1 : (i 1).val < 64 := (i 1).isLt
  have hi2 : (i 2).val < 256 := (i 2).isLt
  obtain ⟨t, ht⟩ := slab_of_range ⟨(i 0).val / 256, by omega⟩
  have q0 : win0_5.index t (0 : Fin 3) = (i 0).val / 256 := congrFun ht 0
  have q1 : win0_5.index t (1 : Fin 3) = 0 := congrFun ht 1
  have q2 : win0_5.index t (2 : Fin 3) = 0 := congrFun ht 2
  refine ⟨t, flush0_5 t, ?_⟩
  rw [mem_slab]
  intro a
  match a with
  | ⟨0, _⟩ => show win0_5.index t (0 : Fin 3) * 256 ≤ (i 0).val ∧ (i 0).val < win0_5.index t (0 : Fin 3) * 256 + 256; omega
  | ⟨1, _⟩ => show win0_5.index t (1 : Fin 3) * 64 ≤ (i 1).val ∧ (i 1).val < win0_5.index t (1 : Fin 3) * 64 + 64; omega
  | ⟨2, _⟩ => show win0_5.index t (2 : Fin 3) * 256 ≤ (i 2).val ∧ (i 2).val < win0_5.index t (2 : Fin 3) * 256 + 256; omega

/-- The array the kernel leaves is the specification of the five arguments. -/
theorem result_eq (c : Dev nD) :
    (dats m 0 c).arrAt 5 cfg0.N
      = Cert.DenseMlp.out (m ((c : Thread nD τ).loc main_arg0)) (m ((c : Thread nD τ).loc main_arg1))
          (m ((c : Thread nD τ).loc main_arg2)) (m ((c : Thread nD τ).loc main_arg3)) (m ((c : Thread nD τ).loc main_arg4)) :=
  (dats m 0 c).arrAt_eq_of_cover 5 _ (fun t _ => slab_eq m c t) slabs_cover

/-- Every weakly fair execution of the kernel program ends with the result at the specification of the arguments and
    the arguments as they were. -/
theorem run : θ_run defs (onTc (τ := τ) (main (F := F))) ⟨m, fun _ => 0, ρ⟩ fun r => ∀ c : Dev nD,
      r.2.mem ((c : Thread nD τ).loc main_v2)
        = Cert.DenseMlp.out (m ((c : Thread nD τ).loc main_arg0)) (m ((c : Thread nD τ).loc main_arg1))
            (m ((c : Thread nD τ).loc main_arg2)) (m ((c : Thread nD τ).loc main_arg3)) (m ((c : Thread nD τ).loc main_arg4))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) :=
  (θ_run defs _ _).mono (fun r h c => ⟨(h c).1.trans (result_eq m c), (h c).2⟩) (run_blocks m ρ)

end Cert.DenseMlp.Ker

end
-- ==== Proof.lean ====
/-
  A dense per-unit MLP over a batch: the Pallas kernel against its jnp reference, over the extended reals.

  Both programs compute, for a batch x[4096,64] and parameters w1[64], b1[64], W2[64,256], b2[64,256],
      out[b,i,n] = max(x[b,i] · w1[i] + b1[i], 0) · W2[i,n] + b2[i,n]
  with the same operations in the same order and the same zero in the positive part; they differ only in layout. The
  reference broadcasts every operand to [4096,64,256]; the kernel cuts the batch into 16 slabs of 256 rows and, per
  slab, broadcasts inside the block. So the proof compares WHERE each side reads its operands, and needs no law of
  arithmetic and no finiteness of the inputs:
    * Proof/DenseSpec.lean   — the function `out`, index by index;
    * Proof/RefIsSpec.lean   — the reference's last stage is `out` of its arguments;
    * Proof/KernelBlock.lean — what slab t writes back is slab t of `out`;
    * Proof/KernelArray.lean — the slabs fill the result, so the kernel leaves `out` of its arguments.
  The three frame claims are the generated frames (the reference's is its run with the value dropped); the kernel's
  idealization rewrote nothing, so `preserves` is trivial.
-/
import proofs.«159730_j5557687681688_1_alg».proof.Defs
import proofs.«159730_j5557687681688_1_alg».proof.Proof.Gen.Kernel
import proofs.«159730_j5557687681688_1_alg».proof.Proof.Gen.Kernel.Skeleton
import proofs.«159730_j5557687681688_1_alg».proof.Proof.Gen.Kernel.Launch
import proofs.«159730_j5557687681688_1_alg».proof.Proof.Gen.Kernel.Points
import proofs.«159730_j5557687681688_1_alg».proof.Proof.Gen.Kernel.Frame
import proofs.«159730_j5557687681688_1_alg».proof.Proof.Gen.KernelIdeal
import proofs.«159730_j5557687681688_1_alg».proof.Proof.Gen.KernelIdeal.Skeleton
import proofs.«159730_j5557687681688_1_alg».proof.Proof.Gen.KernelIdeal.Launch
import proofs.«159730_j5557687681688_1_alg».proof.Proof.Gen.KernelIdeal.Points
import proofs.«159730_j5557687681688_1_alg».proof.Proof.Gen.KernelIdeal.Frame
import proofs.«159730_j5557687681688_1_alg».proof.Proof.Gen.ReferenceIdeal
import proofs.«159730_j5557687681688_1_alg».proof.Proof.Gen.Pre_finite_inputs
import proofs.«159730_j5557687681688_1_alg».proof.Proof.Gen.KernelIdeal.Value
import proofs.«159730_j5557687681688_1_alg».proof.Proof.Gen.ReferenceIdeal.Run
import proofs.«159730_j5557687681688_1_alg».proof.Proof.Gen.ReferenceIdeal.Read
import proofs.«159730_j5557687681688_1_alg».proof.Proof.RefIsSpec
import proofs.«159730_j5557687681688_1_alg».proof.Proof.KernelArray
import Idealize.ShloMosaic.Adequacy
import Idealize.ShloMosaic.Init

noncomputable section

namespace Cert.Proof

open Idealize.ShloMosaic Idealize.SL.Sem

/-- The word-level kernel runs and leaves its arguments alone. -/
theorem frame_kernel [Cert.Kernel.Facts] [Cert.Pre_finite_inputs.Facts] : Cert.frame_Kernel :=
  fun m ρ _ => Cert.Kernel.Gen.frame m ρ

/-- So does the kernel read over the extended reals. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the value forgotten. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- From arguments that agree, both programs end with `out` of those arguments. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨_, Cert.DenseMlp.Ker.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, Cert.DenseMlp.Ref.stage_eq,
    (hagree c).1, (hagree c).2.1, (hagree c).2.2.1, (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
